-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩
abbrev S5000 : Shape := ⟨1, ![5000]⟩
abbrev S5000x1 : Shape := ⟨2, ![5000, 1]⟩

abbrev nBuf : Space → Nat
  | .hbm => 85
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x64, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x64, .f32⟩
  | .hbm, ⟨76, _⟩ => ⟨S1700000x1, .f32⟩
  | .hbm, ⟨77, _⟩ => ⟨S1700000x64, .f32⟩
  | .hbm, ⟨78, _⟩ => ⟨S1700000x64, .f32⟩
  | .hbm, ⟨79, _⟩ => ⟨S_, .f32⟩
  | .hbm, ⟨80, _⟩ => ⟨S100000x64, .f32⟩
  | .hbm, ⟨81, _⟩ => ⟨S1700000x1, .i32⟩
  | .hbm, ⟨82, _⟩ => ⟨S100000x64, .f32⟩
  | .hbm, ⟨83, _⟩ => ⟨S1x64, .f32⟩
  | .hbm, ⟨84, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_c_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩

abbrev nBuf : Space → Nat
  | .hbm => 106
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x64, .f32⟩
  | .hbm, ⟨81, _⟩ => ⟨S1700000x1, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S100000, .f32⟩
  | .hbm, ⟨93, _⟩ => ⟨S_, .f32⟩
  | .hbm, ⟨94, _⟩ => ⟨S100000, .f32⟩
  | .hbm, ⟨95, _⟩ => ⟨S100000, .f32⟩
  | .hbm, ⟨96, _⟩ => ⟨S100000x1, .f32⟩
  | .hbm, ⟨97, _⟩ => ⟨S100000x64, .f32⟩
  | .hbm, ⟨98, _⟩ => ⟨S100000x64, .f32⟩
  | .hbm, ⟨99, _⟩ => ⟨S100000x64, .f32⟩
  | .hbm, ⟨100, _⟩ => ⟨S_, .f32⟩
  | .hbm, ⟨101, _⟩ => ⟨S100000, .f32⟩
  | .hbm, ⟨102, _⟩ => ⟨S100000x1, .f32⟩
  | .hbm, ⟨103, _⟩ => ⟨S100000x1, .f32⟩
  | .hbm, ⟨104, _⟩ => ⟨S100000x64, .f32⟩
  | .hbm, ⟨105, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_call2_cst : Ref sig .tc := ⟨.hbm, 91, rfl⟩
abbrev main_call2_v0 : Ref sig .tc := ⟨.hbm, 92, rfl⟩
abbrev main_call2_cst_0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_cst_1 : Ref sig .tc := ⟨.hbm, 100, rfl⟩
abbrev main_call2_v7 : Ref sig .tc := ⟨.hbm, 101, rfl⟩
abbrev main_call2_v8 : Ref sig .tc := ⟨.hbm, 102, rfl⟩
abbrev main_call2_v9 : Ref sig .tc := ⟨.hbm, 103, rfl⟩
abbrev main_call2_v10 : Ref sig .tc := ⟨.hbm, 104, rfl⟩
abbrev main_v66 : Ref sig .tc := ⟨.hbm, 105, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Glue.lean ====
/-
  The host operations around the three regions, read at the segment boundaries. Both programs build the same
  message lists (edge sources and destinations, then every node once) and the same coefficient
  deg(src)^(-1/2) · deg(dst)^(-1/2) from the edge argument before any dense work, and between two dense layers both
  gather rows by source, scale by the coefficient and scatter-add by destination. So at each boundary the kernel's
  buffers hold the reference's stages of the same arguments: the three index-side values because nothing writes
  them after they are made, each aggregate because it is the same operations applied to equal operands.
-/
import proofs.«118157_j79242146611357_1_alg».proof.Proof.Gen.KernelIdeal.Frame
import proofs.«118157_j79242146611357_1_alg».proof.Proof.RefRead

set_option maxRecDepth 16384

noncomputable section
namespace Cert.KernelIdeal.Glue
open Cert.KernelIdeal Cert.KernelIdeal.Gen Idealize.ShloMosaic Idealize.ShloMosaic.TcCoe Idealize.SL.Sem
open Cert.ReferenceIdeal.PRead

variable {F : FTy → Type} [FloatOps F]
variable (m : (ℓ : Loc nD τ sig) → Buf (Elt F) ℓ) (ρ : Dev nD → PrngReg)

/-- A buffer that no operation of a host stretch writes keeps its contents across the stretch. -/
local macro "untouched" : tactic => `(tactic| exact StableHlo.after_of_forall_not_mem _ _ (List.forall_iff_forall_mem.mp (by
  simp only [hostOps0, hostOps0_1, hostOps0_2, hostOps1, hostOps2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

/-! ## Before the first region: the edge lists and the normalisation, as the reference computes them -/

/-- The source list (edge sources, then every node once). -/
theorem src_at3 (c : Dev nD) :
    W3 m ρ c (Proc.devRef .tc main_v3) = val_main_v3 (F := F) (m ((c : Thread nD τ).loc main_arg1)) := by
  have e2 : W3 m ρ c (Proc.devRef .tc main_v3) = W2 m ρ c (Proc.devRef .tc main_v3) := by untouched
  have e1 : W2 m ρ c (Proc.devRef .tc main_v3) = W1 m ρ c (Proc.devRef .tc main_v3) := by untouched
  rw [e2, e1]
  show StableHlo.after hostOps0 (W0 m ρ c) (Proc.devRef .tc main_v3) = _
  dsimp only [hostOps0]
  after_results
  rfl

/-- The destination list (edge destinations, then every node once). -/
theorem dst_at3 (c : Dev nD) :
    W3 m ρ c (Proc.devRef .tc main_v6) = val_main_v6 (F := F) (m ((c : Thread nD τ).loc main_arg1)) := by
  have e2 : W3 m ρ c (Proc.devRef .tc main_v6) = W2 m ρ c (Proc.devRef .tc main_v6) := by untouched
  have e1 : W2 m ρ c (Proc.devRef .tc main_v6) = W1 m ρ c (Proc.devRef .tc main_v6) := by untouched
  rw [e2, e1]
  show StableHlo.after hostOps0 (W0 m ρ c) (Proc.devRef .tc main_v6) = _
  dsimp only [hostOps0]
  after_results
  rfl

/-- The per-message coefficient deg(src)^(-1/2) · deg(dst)^(-1/2). -/
theorem norm_at3 (c : Dev nD) :
    W3 m ρ c (Proc.devRef .tc main_v30) = val_main_v30 (F := F) (m ((c : Thread nD τ).loc main_arg1)) := by
  show StableHlo.after hostOps0_2 (StableHlo.after hostOps0_1 (StableHlo.after hostOps0 (W0 m ρ c))) (Proc.devRef .tc main_v30) = _
  dsimp only [hostOps0, hostOps0_1, hostOps0_2]
  after_results_simp
  rfl

/-! ## The same three values at the later boundaries: no region and no later stretch writes them -/

theorem src_at4 (c : Dev nD) : W4 m ρ c (Proc.devRef .tc main_v3) = val_main_v3 (F := F) (m ((c : Thread nD τ).loc main_arg1)) :=
  (W4_of_ne m ρ c main_v3 (by decide)).trans (src_at3 m ρ c)
theorem dst_at4 (c : Dev nD) : W4 m ρ c (Proc.devRef .tc main_v6) = val_main_v6 (F := F) (m ((c : Thread nD τ).loc main_arg1)) :=
  (W4_of_ne m ρ c main_v6 (by decide)).trans (dst_at3 m ρ c)
theorem norm_at4 (c : Dev nD) : W4 m ρ c (Proc.devRef .tc main_v30) = val_main_v30 (F := F) (m ((c : Thread nD τ).loc main_arg1)) :=
  (W4_of_ne m ρ c main_v30 (by decide)).trans (norm_at3 m ρ c)

theorem src_at6 (c : Dev nD) : W6 m ρ c (Proc.devRef .tc main_v3) = val_main_v3 (F := F) (m ((c : Thread nD τ).loc main_arg1)) :=
  (W6_of_ne m ρ c main_v3 (by decide)).trans
    ((show W5 m ρ c (Proc.devRef .tc main_v3) = W4 m ρ c (Proc.devRef .tc main_v3) by untouched).trans (src_at4 m ρ c))
theorem dst_at6 (c : Dev nD) : W6 m ρ c (Proc.devRef .tc main_v6) = val_main_v6 (F := F) (m ((c : Thread nD τ).loc main_arg1)) :=
  (W6_of_ne m ρ c main_v6 (by decide)).trans
    ((show W5 m ρ c (Proc.devRef .tc main_v6) = W4 m ρ c (Proc.devRef .tc main_v6) by untouched).trans (dst_at4 m ρ c))
theorem norm_at6 (c : Dev nD) : W6 m ρ c (Proc.devRef .tc main_v30) = val_main_v30 (F := F) (m ((c : Thread nD τ).loc main_arg1)) :=
  (W6_of_ne m ρ c main_v30 (by decide)).trans
    ((show W5 m ρ c (Proc.devRef .tc main_v30) = W4 m ρ c (Proc.devRef .tc main_v30) by untouched).trans (norm_at4 m ρ c))

/-! ## The argument arrays where a region or a stretch reads them -/

theorem arg0_at3 (c : Dev nD) : W3 m ρ c (Proc.devRef .tc main_arg0) = (m ((c : Thread nD τ).loc main_arg0)) :=
  calc W3 m ρ c (Proc.devRef .tc main_arg0) = W2 m ρ c (Proc.devRef .tc main_arg0) := by untouched
    _ = W1 m ρ c (Proc.devRef .tc main_arg0) := by untouched
    _ = W0 m ρ c (Proc.devRef .tc main_arg0) := by untouched
    _ = _ := rfl
theorem arg2_at3 (c : Dev nD) : W3 m ρ c (Proc.devRef .tc main_arg2) = (m ((c : Thread nD τ).loc main_arg2)) :=
  calc W3 m ρ c (Proc.devRef .tc main_arg2) = W2 m ρ c (Proc.devRef .tc main_arg2) := by untouched
    _ = W1 m ρ c (Proc.devRef .tc main_arg2) := by untouched
    _ = W0 m ρ c (Proc.devRef .tc main_arg2) := by untouched
    _ = _ := rfl
theorem arg3_at4 (c : Dev nD) : W4 m ρ c (Proc.devRef .tc main_arg3) = (m ((c : Thread nD τ).loc main_arg3)) :=
  calc W4 m ρ c (Proc.devRef .tc main_arg3) = W3 m ρ c (Proc.devRef .tc main_arg3) := W4_of_ne m ρ c main_arg3 (by decide)
    _ = W2 m ρ c (Proc.devRef .tc main_arg3) := by untouched
    _ = W1 m ρ c (Proc.devRef .tc main_arg3) := by untouched
    _ = W0 m ρ c (Proc.devRef .tc main_arg3) := by untouched
    _ = _ := rfl
theorem arg4_at5 (c : Dev nD) : W5 m ρ c (Proc.devRef .tc main_arg4) = (m ((c : Thread nD τ).loc main_arg4)) :=
  calc W5 m ρ c (Proc.devRef .tc main_arg4) = W4 m ρ c (Proc.devRef .tc main_arg4) := by untouched
    _ = W3 m ρ c (Proc.devRef .tc main_arg4) := W4_of_ne m ρ c main_arg4 (by decide)
    _ = W2 m ρ c (Proc.devRef .tc main_arg4) := by untouched
    _ = W1 m ρ c (Proc.devRef .tc main_arg4) := by untouched
    _ = W0 m ρ c (Proc.devRef .tc main_arg4) := by untouched
    _ = _ := rfl
theorem arg5_at6 (c : Dev nD) : W6 m ρ c (Proc.devRef .tc main_arg5) = (m ((c : Thread nD τ).loc main_arg5)) :=
  calc W6 m ρ c (Proc.devRef .tc main_arg5) = W5 m ρ c (Proc.devRef .tc main_arg5) := W6_of_ne m ρ c main_arg5 (by decide)
    _ = W4 m ρ c (Proc.devRef .tc main_arg5) := by untouched
    _ = W3 m ρ c (Proc.devRef .tc main_arg5) := W4_of_ne m ρ c main_arg5 (by decide)
    _ = W2 m ρ c (Proc.devRef .tc main_arg5) := by untouched
    _ = W1 m ρ c (Proc.devRef .tc main_arg5) := by untouched
    _ = W0 m ρ c (Proc.devRef .tc main_arg5) := by untouched
    _ = _ := rfl

/-! ## The two stretches between the regions: gather by source, scale, scatter-add by destination -/

set_option maxHeartbeats 2000000 in
/-- The stretch between the first and second regions, from any contents: gather the product's rows by source, scale by
    the coefficient, scatter-add by destination. -/
theorem agg1_of (Vin : Valuation τ sig (Elt F))
    (x0 : (⟨Cert.ReferenceIdeal.S100000x128, .f32⟩ : BufTy).Contents (Elt F)) (x1 : (⟨Cert.ReferenceIdeal.S2x1600000, .i32⟩ : BufTy).Contents (Elt F))
    (x2 : (⟨Cert.ReferenceIdeal.S128x128, .f32⟩ : BufTy).Contents (Elt F))
    (h : Vin (Proc.devRef .tc main_v31) = val_main_v31 (F := F) x0 x2)
    (h3 : Vin (Proc.devRef .tc main_v3) = val_main_v3 (F := F) x1) (h6 : Vin (Proc.devRef .tc main_v6) = val_main_v6 (F := F) x1)
    (h30 : Vin (Proc.devRef .tc main_v30) = val_main_v30 (F := F) x1) :
    StableHlo.after hostOps1 Vin (Proc.devRef .tc main_v44) = val_main_v44 (F := F) x0 x1 x2 := by
  dsimp only [hostOps1]
  after_results_simp
  rw [h, h3, h6, h30]
  rfl

/-- Between the first and second regions: the aggregate of the first layer's messages, given the first region's product. -/
theorem agg1_at5 (c : Dev nD)
    (h : W4 m ρ c (Proc.devRef .tc main_v31) = val_main_v31 (F := F) (m ((c : Thread nD τ).loc main_arg0)) (m ((c : Thread nD τ).loc main_arg2))) :
    W5 m ρ c (Proc.devRef .tc main_v44) = val_main_v44 (F := F) (m ((c : Thread nD τ).loc main_arg0)) (m ((c : Thread nD τ).loc main_arg1)) (m ((c : Thread nD τ).loc main_arg2)) :=
  agg1_of (W4 m ρ c) _ _ _ h (src_at4 m ρ c) (dst_at4 m ρ c) (norm_at4 m ρ c)

/-- The first bias as the one-row matrix the second region reads. -/
theorem bias1_at5 (c : Dev nD) :
    W5 m ρ c (Proc.devRef .tc main_v45) = shapeCast S1x128 (m ((c : Thread nD τ).loc main_arg3)) shapeCasts_S128_S1x128 := by
  show StableHlo.after hostOps1 (W4 m ρ c) (Proc.devRef .tc main_v45) = _
  dsimp only [hostOps1]
  after_results
  rw [arg3_at4 m ρ c]
  rfl

set_option maxHeartbeats 2000000 in
/-- The stretch between the second and third regions, from any contents. -/
theorem agg2_of (Vin : Valuation τ sig (Elt F))
    (x0 : (⟨Cert.ReferenceIdeal.S100000x128, .f32⟩ : BufTy).Contents (Elt F)) (x1 : (⟨Cert.ReferenceIdeal.S2x1600000, .i32⟩ : BufTy).Contents (Elt F))
    (x2 : (⟨Cert.ReferenceIdeal.S128x128, .f32⟩ : BufTy).Contents (Elt F)) (x3 : (⟨Cert.ReferenceIdeal.S128, .f32⟩ : BufTy).Contents (Elt F))
    (x4 : (⟨Cert.ReferenceIdeal.S128x64, .f32⟩ : BufTy).Contents (Elt F))
    (h : Vin (Proc.devRef .tc main_v46) = val_main_v49 (F := F) x0 x1 x2 x3 x4)
    (h3 : Vin (Proc.devRef .tc main_v3) = val_main_v3 (F := F) x1) (h6 : Vin (Proc.devRef .tc main_v6) = val_main_v6 (F := F) x1)
    (h30 : Vin (Proc.devRef .tc main_v30) = val_main_v30 (F := F) x1) :
    StableHlo.after hostOps2 Vin (Proc.devRef .tc main_v59) = val_main_v62 (F := F) x0 x1 x2 x3 x4 := by
  dsimp only [hostOps2]
  after_results_simp
  rw [h, h3, h6, h30]
  rfl

/-- Between the second and third regions: the aggregate of the second layer's messages, given the second region's product. -/
theorem agg2_at7 (c : Dev nD)
    (h : W6 m ρ c (Proc.devRef .tc main_v46) = val_main_v49 (F := F) (m ((c : Thread nD τ).loc main_arg0)) (m ((c : Thread nD τ).loc main_arg1)) (m ((c : Thread nD τ).loc main_arg2)) (m ((c : Thread nD τ).loc main_arg3)) (m ((c : Thread nD τ).loc main_arg4))) :
    W7 m ρ c (Proc.devRef .tc main_v59) = val_main_v62 (F := F) (m ((c : Thread nD τ).loc main_arg0)) (m ((c : Thread nD τ).loc main_arg1)) (m ((c : Thread nD τ).loc main_arg2)) (m ((c : Thread nD τ).loc main_arg3)) (m ((c : Thread nD τ).loc main_arg4)) :=
  agg2_of (W6 m ρ c) _ _ _ _ _ h (src_at6 m ρ c) (dst_at6 m ρ c) (norm_at6 m ρ c)

/-- The second bias as the one-row matrix the third region reads. -/
theorem bias2_at7 (c : Dev nD) :
    W7 m ρ c (Proc.devRef .tc main_v60) = shapeCast S1x64 (m ((c : Thread nD τ).loc main_arg5)) shapeCasts_S64_S1x64 := by
  show StableHlo.after hostOps2 (W6 m ρ c) (Proc.devRef .tc main_v60) = _
  dsimp only [hostOps2]
  after_results
  rw [arg5_at6 m ρ c]
  rfl

end Cert.KernelIdeal.Glue
end
-- ==== Proof.Region0.lean ====
/-
  The first dense layer. Grid point t multiplies rows 5000·t … 5000·t + 4999 of x by the whole of W1;
  the twenty row blocks tile the output, so the array ends at the product x · W1, entry by entry
  the sum over k of x(i,k) · W1(k,j).
-/
import proofs.«118157_j79242146611357_1_alg».proof.Proof.Gen.KernelIdeal.Frame
import proofs.«118157_j79242146611357_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section
namespace Cert.KernelIdeal.Dense1
open Cert.KernelIdeal Cert.KernelIdeal.Gen Idealize.ShloMosaic Idealize.ShloMosaic.TcCoe Idealize.SL.Sem

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Row `y 0` of the block, column `k`. -/
abbrev rowAt (y : S5000x128.Idx) (k : Fin 128) : S5000x128.Idx := fun a => match a with
  | ⟨0, _⟩ => ⟨(y 0).val, (y 0).isLt⟩
  | ⟨1, _⟩ => ⟨k.val, k.isLt⟩
/-- Row `k` of the weights, column `y 1`. -/
abbrev colAt (y : S5000x128.Idx) (k : Fin 128) : S128x128.Idx := fun a => match a with
  | ⟨0, _⟩ => ⟨k.val, k.isLt⟩
  | ⟨1, _⟩ => ⟨(y 1).val, (y 1).isLt⟩

/-- The body's product at an entry: the sum over the 128 shared coordinates of block row times weight column. -/
theorem pay_apply (x : Vec Ideal S5000x128 .f32) (w : Vec Ideal S128x128 .f32) (y : S5000x128.Idx) :
    k0_pay1 (F := Ideal) x w y = ∑ k : Fin 128, x (rowAt y k) * w (colAt y k) := by
  unfold k0_pay1
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx y ((ValueIdx.contrEquiv1 dot_S5000x128_S128x128_S5000x128_1_0_0_1_n_n 128 rfl rfl).symm k) = rowAt y k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx y ((ValueIdx.contrEquiv1 dot_S5000x128_S128x128_S5000x128_1_0_0_1_n_n 128 rfl rfl).symm k) = colAt y k := funext fun a => Fin.ext (by
    match a with
    | ⟨0, _⟩ => exact (rhs_axis0 _ _).trans hk
    | ⟨1, _⟩ => exact rhs_axis1 _ _)
  rw [el, er]
  rfl

open Idealize.ShloMosaic.Pipeline (Dat Cfg Window)
variable (V : (c : Dev nD) → (b : Ref sig .tc) → Buf (Elt Ideal) ((c : Thread nD τ).loc b))

theorem zero_off : (![0, 0] : Fin 2 → Nat) = fun _ => 0 := funext fun a => by fin_cases a <;> rfl

/-- The three index maps over the grid: the two row-blocked windows sit at block row `t`, the weights at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An entry of the output array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- Every entry of the output array lies in the block of the point that owns its row: row r belongs to point r / 5000. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 5000, by show (i 0).val / 5000 < 20; omega⟩
  obtain ⟨-, -, -, -, e4, e5⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- A row block against the whole array. If the block `x` holds rows n·5000 … of `X` and `w` is `W`, the body's
    product at block entry `y` is the reference's product of `X` and `W` at the entry `i` in the same row and column. -/
theorem block_eq (X : (⟨Cert.ReferenceIdeal.S100000x128, .f32⟩ : BufTy).Contents (Elt Ideal))
    (W : (⟨Cert.ReferenceIdeal.S128x128, .f32⟩ : BufTy).Contents (Elt Ideal))
    (x : Vec Ideal S5000x128 .f32) (w : Vec Ideal S128x128 .f32) (n : Nat)
    (y : S5000x128.Idx) (i : Cert.ReferenceIdeal.S100000x128.Idx)
    (hx : ∀ (p : S5000x128.Idx) (j : Cert.ReferenceIdeal.S100000x128.Idx),
      (j 0).val = n * 5000 + (p 0).val → (j 1).val = (p 1).val → x p = X j)
    (hw : ∀ (p : S128x128.Idx) (j : Cert.ReferenceIdeal.S128x128.Idx),
      (j 0).val = (p 0).val → (j 1).val = (p 1).val → w p = W j)
    (hi0 : (i 0).val = n * 5000 + (y 0).val) (hi1 : (i 1).val = (y 1).val) :
    k0_pay1 (F := Ideal) x w y = Cert.ReferenceIdeal.PRead.val_main_v31 (F := Ideal) X W i := by
  rw [pay_apply, Cert.ReferenceIdeal.PRead.val_main_v31_apply]
  refine Finset.sum_congr rfl fun k _ => ?_
  rw [hx (rowAt y k) (Cert.ReferenceIdeal.PRead.lidx_main_v31 i k) hi0 rfl,
    hw (colAt y k) (Cert.ReferenceIdeal.PRead.ridx_main_v31 i k) rfl hi1]

/-- What point `t` writes back is block `t` of the product of the two arrays the region finds. -/
theorem flushed_eq (c : Dev nD) (t : Fin cfg0.N) :
    (dat0 (F := Ideal) V c).flushed 2 t
      = ((cfg0.win 2).blk t).view.read (Elt Ideal)
          (Cert.ReferenceIdeal.PRead.val_main_v31 (F := Ideal) (V c main_arg0) (V c main_arg2)) := by
  show (cfg0.win 2).cut (grid0.coords t) ((dat0 V c).after 2 t) = _
  rw [after0_2]
  unfold out0_2
  rw [View.canon_unit_zero zero_off]
  simp only [View.ld_unit_zero (S := S5000x128) zero_off, View.ld_unit_zero (S := S128x128) zero_off]
  obtain ⟨e0, e1, e2, e3, e4, e5⟩ := idx_facts t
  funext y
  show k0_pay1 (F := Ideal) (iblk0 V c 0 t) (iblk0 V c 1 t) y
      = Cert.ReferenceIdeal.PRead.val_main_v31 (F := Ideal) (V c main_arg0) (V c main_arg2) (((cfg0.win 2).blk t).view.emb y)
  refine block_eq (V c main_arg0) (V c main_arg2) (iblk0 V c 0 t) (iblk0 V c 1 t) t.val y _ ?_ ?_ ?_ ?_
  · intro p j h0 h1
    show V c main_arg0 (((cfg0.win 0).blk t).view.emb p) = V c main_arg0 j
    refine congrArg (V c main_arg0) (funext fun a => Fin.ext ?_)
    match a with
    | ⟨0, _⟩ => show win0_0.index t (0 : Fin 2) * 5000 + 1 * (p 0).val = (j 0).val; omega
    | ⟨1, _⟩ => show win0_0.index t (1 : Fin 2) * 128 + 1 * (p 1).val = (j 1).val; omega
  · intro p j h0 h1
    show V c main_arg2 (((cfg0.win 1).blk t).view.emb p) = V c main_arg2 j
    refine congrArg (V c main_arg2) (funext fun a => Fin.ext ?_)
    match a with
    | ⟨0, _⟩ => show win0_1.index t (0 : Fin 2) * 128 + 1 * (p 0).val = (j 0).val; omega
    | ⟨1, _⟩ => show win0_1.index t (1 : Fin 2) * 128 + 1 * (p 1).val = (j 1).val; omega
  · show win0_2.index t (0 : Fin 2) * 5000 + 1 * (y 0).val = t.val * 5000 + (y 0).val; omega
  · show win0_2.index t (1 : Fin 2) * 128 + 1 * (y 1).val = (y 1).val; omega

/-- After the first region its output array is the reference's product of the two argument arrays. -/
theorem array_eq (c : Dev nD) :
    (dat0 (F := Ideal) V c).arrAt 2 cfg0.N
      = Cert.ReferenceIdeal.PRead.val_main_v31 (F := Ideal) (V c main_arg0) (V c main_arg2) :=
  (dat0 (F := Ideal) V c).arrAt_eq_of_cover 2 _ (fun t _ => flushed_eq V c t) covered

end Cert.KernelIdeal.Dense1

end
-- ==== Proof.Region1.lean ====
/-
  The second dense layer, fused with the first layer's bias and relu. Grid point t takes rows
  5000·t … 5000·t + 4999 of the aggregated features A, adds the bias row b1 to each, clamps at zero and
  multiplies by the whole of W2; the row blocks tile the output, which ends at
  (i,j) ↦ Σ_k max(A(i,k) + b1(k), 0) · W2(k,j).
-/
import proofs.«118157_j79242146611357_1_alg».proof.Proof.Gen.KernelIdeal.Frame
import proofs.«118157_j79242146611357_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense2

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-! ## The block product at an index -/

/-- At output index `y` and contraction index `k` the left operand is read at (row of `y`, `k`), -/
abbrev lix (y : S5000x64.Idx) (k : Fin 128) : S5000x128.Idx := fun a => match a with
  | ⟨0, _⟩ => ⟨(y 0).val, (y 0).isLt⟩
  | ⟨1, _⟩ => ⟨k.val, k.isLt⟩
/-- the bias row at (0, `k`), -/
abbrev bix (k : Fin 128) : S1x128.Idx := fun a => match a with
  | ⟨0, _⟩ => ⟨0, Nat.one_pos⟩
  | ⟨1, _⟩ => ⟨k.val, k.isLt⟩
/-- and the right operand at (`k`, column of `y`). -/
abbrev rix (y : S5000x64.Idx) (k : Fin 128) : S128x64.Idx := fun a => match a with
  | ⟨0, _⟩ => ⟨k.val, k.isLt⟩
  | ⟨1, _⟩ => ⟨(y 1).val, (y 1).isLt⟩

theorem lhs_blk_0 (y : S5000x64.Idx) (q : dot_S5000x128_S128x64_S5000x64_1_0_0_1_n_n.contr.Idx) :
    (dot_S5000x128_S128x64_S5000x64_1_0_0_1_n_n.lhsIdx y q 0).val = (y 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_blk_1 (y : S5000x64.Idx) (q : dot_S5000x128_S128x64_S5000x64_1_0_0_1_n_n.contr.Idx) :
    (dot_S5000x128_S128x64_S5000x64_1_0_0_1_n_n.lhsIdx y q 1).val = (q ⟨0, by decide⟩).val :=
  dot_S5000x128_S128x64_S5000x64_1_0_0_1_n_n.lhsIdx_val_of_single rfl y q
theorem rhs_blk_0 (y : S5000x64.Idx) (q : dot_S5000x128_S128x64_S5000x64_1_0_0_1_n_n.contr.Idx) :
    (dot_S5000x128_S128x64_S5000x64_1_0_0_1_n_n.rhsIdx y q 0).val = (q ⟨0, by decide⟩).val :=
  dot_S5000x128_S128x64_S5000x64_1_0_0_1_n_n.rhsIdx_val_of_single rfl y q
theorem rhs_blk_1 (y : S5000x64.Idx) (q : dot_S5000x128_S128x64_S5000x64_1_0_0_1_n_n.contr.Idx) :
    (dot_S5000x128_S128x64_S5000x64_1_0_0_1_n_n.rhsIdx y q 1).val = (y 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The body's product at (p, q): Σ_k max(v0(p,k) + v2(0,k), 0) · v9(k,q). -/
theorem pay_apply (v0 : Vec Ideal S5000x128 .f32) (v2 : Vec Ideal S1x128 .f32) (v9 : Vec Ideal S128x64 .f32) (y : S5000x64.Idx) :
    k1_pay1 (F := Ideal) v0 v2 v9 y
      = ∑ k : Fin 128, max (v0 (lix y k) + v2 (bix k)) (Ideal.ofBits .f32 0x00000000#32) * v9 (rix y k) := by
  unfold k1_pay1
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx y ((ValueIdx.contrEquiv1 dot_S5000x128_S128x64_S5000x64_1_0_0_1_n_n 128 rfl rfl).symm k) = lix y k := funext fun a => Fin.ext (by
    match a with
    | ⟨0, _⟩ => exact lhs_blk_0 _ _
    | ⟨1, _⟩ => exact (lhs_blk_1 _ _).trans hk)
  have er : dot_S5000x128_S128x64_S5000x64_1_0_0_1_n_n.rhsIdx y ((ValueIdx.contrEquiv1 dot_S5000x128_S128x64_S5000x64_1_0_0_1_n_n 128 rfl rfl).symm k) = rix y k := funext fun a => Fin.ext (by
    match a with
    | ⟨0, _⟩ => exact (rhs_blk_0 _ _).trans hk
    | ⟨1, _⟩ => exact rhs_blk_1 _ _)
  rw [el, er]
  have eb : broadcastTo S5000x128 (shapeCast S1x128 v2 shapeCasts_S1x128_S1x128) broadcasts_S1x128_S5000x128 (lix y k) = v2 (bix k) := by
    rw [shapeCast_self]
    exact broadcastTo_apply v2 broadcasts_S1x128_S5000x128 (lix y k) (bix k) (fun a => match a with
      | ⟨0, _⟩ => by show 0 = if (1 : Nat) = 1 then 0 else (y 0).val; rw [if_pos rfl]
      | ⟨1, _⟩ => by show k.val = if (128 : Nat) = 1 then 0 else k.val; rw [if_neg (by decide)])
  show max (shapeCast S5000x128 v0 shapeCasts_S5000x128_S5000x128 (lix y k) + broadcastTo S5000x128 (shapeCast S1x128 v2 shapeCasts_S1x128_S1x128) broadcasts_S1x128_S5000x128 (lix y k)) (Ideal.ofBits .f32 0x00000000#32) * v9 (rix y k) = _
  rw [eb, shapeCast_self]

/-! ## The closed form -/

/-- Row `i`'s entry `k` of the aggregate, -/
abbrev aix (i : S100000x64.Idx) (k : Fin 128) : S100000x128.Idx := fun a => match a with
  | ⟨0, _⟩ => ⟨(i 0).val, (i 0).isLt⟩
  | ⟨1, _⟩ => ⟨k.val, k.isLt⟩
/-- and row `k`'s entry at `i`'s column of the weights. -/
abbrev wix (i : S100000x64.Idx) (k : Fin 128) : S128x64.Idx := fun a => match a with
  | ⟨0, _⟩ => ⟨k.val, k.isLt⟩
  | ⟨1, _⟩ => ⟨(i 1).val, (i 1).isLt⟩

/-- (i,j) ↦ Σ_k max(A(i,k) + b(0,k), 0) · W(k,j). -/
def dense (A : (⟨S100000x128, .f32⟩ : BufTy).Contents (Elt Ideal)) (b : (⟨S1x128, .f32⟩ : BufTy).Contents (Elt Ideal))
    (W : (⟨S128x64, .f32⟩ : BufTy).Contents (Elt Ideal)) : (⟨S100000x64, .f32⟩ : BufTy).Contents (Elt Ideal) :=
  fun i => ∑ k : Fin 128, max (A (aix i k) + b (bix k)) (Ideal.ofBits .f32 0x00000000#32) * W (wix i k)

theorem hz : (![0, 0] : Fin 2 → Nat) = fun _ => 0 := funext fun a => by fin_cases a <;> rfl

/-- The index maps over the grid: the row-blocked windows sit at block (t, 0), the whole ones at (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the closed form of the arrays the region finds. -/
theorem flushed_eq (c : Dev nD) (t : Fin cfg1.N) :
    (dat1 (F := Ideal) V c).flushed 3 t
      = ((cfg1.win 3).blk t).view.read (Elt Ideal) (dense (V c main_v44) (V c main_v45) (V c main_arg4)) := by
  show (cfg1.win 3).cut (grid1.coords t) ((dat1 (F := Ideal) V c).after 3 t) = _
  rw [after1_3]
  unfold out1_3
  rw [View.canon_unit_zero hz]
  simp only [View.ld_unit_zero (S := S5000x128) hz, View.ld_unit_zero (S := S1x128) hz, View.ld_unit_zero (S := S128x64) hz]
  obtain ⟨e00, e01, e10, e11, e20, e21, e30, e31⟩ := idx_facts t
  funext y
  show k1_pay1 (F := Ideal) (iblk1 V c 0 t) (iblk1 V c 1 t) (iblk1 V c 2 t) y
    = dense (V c main_v44) (V c main_v45) (V c main_arg4) (((cfg1.win 3).blk t).view.emb y)
  rw [pay_apply]
  unfold dense
  refine Finset.sum_congr rfl fun k _ => ?_
  have a0 : iblk1 V c 0 t (lix y k) = V c main_v44 (aix (((cfg1.win 3).blk t).view.emb y) k) := by
    show V c main_v44 (((cfg1.win 0).blk t).view.emb (lix y k)) = _
    refine congrArg _ (funext fun a => Fin.ext ?_)
    match a with
    | ⟨0, _⟩ => show win1_0.index t (0 : Fin 2) * 5000 + 1 * (y 0).val = win1_3.index t (0 : Fin 2) * 5000 + 1 * (y 0).val; omega
    | ⟨1, _⟩ => show win1_0.index t (1 : Fin 2) * 128 + 1 * k.val = k.val; omega
  have a1 : iblk1 V c 1 t (bix k) = V c main_v45 (bix k) := by
    show V c main_v45 (((cfg1.win 1).blk t).view.emb (bix k)) = _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  have a2 : iblk1 V c 2 t (rix y k) = V c main_arg4 (wix (((cfg1.win 3).blk t).view.emb y) k) := by
    show V c main_arg4 (((cfg1.win 2).blk t).view.emb (rix y k)) = _
    refine congrArg _ (funext fun a => Fin.ext ?_)
    match a with
    | ⟨0, _⟩ => show win1_2.index t (0 : Fin 2) * 128 + 1 * k.val = k.val; omega
    | ⟨1, _⟩ => show win1_2.index t (1 : Fin 2) * 64 + 1 * (y 1).val = win1_3.index t (1 : Fin 2) * 64 + 1 * (y 1).val; omega
  rw [a0, a1, a2]

/-- Point `t`'s block of the output is a box: on each axis, from the block index times the block extent, one extent long. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v46).slice (win1_3.rect t)).set ↔ _
  rw [View.set_slice_whole, Rect.mem_set_unit]
  exact Iff.rfl

/-- Row r lies in the block of point r / 5000, which writes back. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  let t : Fin cfg1.N := ⟨(i 0).val / 5000, by show (i 0).val / 5000 < 20; omega⟩
  obtain ⟨e00, e01, e10, e11, e20, e21, e30, e31⟩ := idx_facts t
  have ht : t.val = (i 0).val / 5000 := rfl
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- After the region the output array is the closed form of the arrays the region found. -/
theorem array_dense (c : Dev nD) :
    (dat1 (F := Ideal) V c).arrAt 3 cfg1.N = dense (V c main_v44) (V c main_v45) (V c main_arg4) :=
  (dat1 (F := Ideal) V c).arrAt_eq_of_cover 3 _ (fun t _ => flushed_eq V c t) cover

/-! ## The closed form is the reference's stage -/

/-- With the aggregate the reference's scatter sum and the bias row the reshaped bias vector, the closed form is the
    reference's product: term by term, the same maximum of the same sum against the same zero. -/
theorem dense_eq_ref
    (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S128x128, .f32⟩ : BufTy).Contents (Elt Ideal))
    (x3 : (⟨Cert.ReferenceIdeal.S128, .f32⟩ : BufTy).Contents (Elt Ideal))
    (W : (⟨Cert.ReferenceIdeal.S128x64, .f32⟩ : BufTy).Contents (Elt Ideal)) :
    dense (Cert.ReferenceIdeal.PRead.val_main_v44 (F := Ideal) x0 x1 x2) (shapeCast S1x128 x3 shapeCasts_S128_S1x128) W
      = Cert.ReferenceIdeal.PRead.val_main_v49 (F := Ideal) x0 x1 x2 x3 W := by
  funext i
  rw [Cert.ReferenceIdeal.PRead.val_main_v49_apply]
  unfold dense
  refine Finset.sum_congr rfl fun k _ => ?_
  rw [Cert.ReferenceIdeal.PRead.val_main_v48_apply, Cert.ReferenceIdeal.PRead.val_main_v47_apply,
    Cert.ReferenceIdeal.PRead.val_main_call1_v0_apply, Cert.ReferenceIdeal.PRead.val_main_call1_cst_apply,
    Cert.ReferenceIdeal.PRead.val_main_v46_apply, Cert.ReferenceIdeal.PRead.val_main_v45_apply]
  have ea : aix i k = Cert.ReferenceIdeal.PRead.lidx_main_v49 i k := funext fun a => by
    match a with
    | ⟨0, _⟩ => rfl
    | ⟨1, _⟩ => rfl
  have ew : wix i k = Cert.ReferenceIdeal.PRead.ridx_main_v49 i k := funext fun a => by
    match a with
    | ⟨0, _⟩ => rfl
    | ⟨1, _⟩ => rfl
  have eb : shapeCast S1x128 x3 shapeCasts_S128_S1x128 (bix k)
      = x3 (Cert.ReferenceIdeal.PRead.idx_main_v45 (Cert.ReferenceIdeal.PRead.idx_main_v46 (Cert.ReferenceIdeal.PRead.lidx_main_v49 i k))) :=
    shapeCast_apply x3 shapeCasts_S128_S1x128 (bix k) _ (by
      rw [Shape.rowMajor_val_two, Shape.rowMajor_val_one]; show k.val = 0 * 128 + k.val; omega)
  rw [ea, ew, eb]
  rfl

/-- After the second region its output array is the reference's stage: relu of (aggregate + bias), times W2. -/
theorem array_eq (c : Dev nD)
    (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S128x128, .f32⟩ : BufTy).Contents (Elt Ideal))
    (x3 : (⟨Cert.ReferenceIdeal.S128, .f32⟩ : BufTy).Contents (Elt Ideal))
    (h0 : V c main_v44 = Cert.ReferenceIdeal.PRead.val_main_v44 (F := Ideal) x0 x1 x2)
    (h1 : V c main_v45 = shapeCast S1x128 x3 shapeCasts_S128_S1x128) :
    (dat1 (F := Ideal) V c).arrAt 3 cfg1.N
      = Cert.ReferenceIdeal.PRead.val_main_v49 (F := Ideal) x0 x1 x2 x3 (V c main_arg4) := by
  rw [array_dense, h0, h1]
  exact dense_eq_ref x0 x1 x2 x3 (V c main_arg4)

end Cert.KernelIdeal.Dense2

end
-- ==== Proof.LibColumn.lean ====
/-
  A vector kept as a COLUMN: what `jnp.sum(..., axis=-1, keepdims=True)` leaves in a kernel body is a length-`a`
  vector cast to the one-column matrix `[a, 1]` and then broadcast across `b` columns to `[a, b]`. Read at an entry
  `(p, c)`, the cast forgets the unit coordinate and the broadcast forgets the column: both give the vector at `p`.
  Stated for any extents and any element type; nothing here mentions a program.
-/
import Idealize.ShloMosaic.Lib.Pipeline.Value
import Idealize.ShloMosaic.Lib.ValueIdx

namespace Cert.LibColumn

open Idealize.ShloMosaic Idealize.ShloMosaic.ValueIdx

variable {α : Type}

/-- A length-`a` vector cast to the column `[a, 1]` reads, at `(p, u)`, the vector at `p`: row-major position
    `p · 1 + u` with `u = 0` is position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast across `b` columns reads, at `(p, c)`, the column's entry in row `p`: the row
    coordinate is kept (or is `0` already when `a = 1`), the unit axis reads `0`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector laid down the rows of an `[a, b]` matrix, through its column cast, reads the
    vector at the row. -/
theorem broadcastTo_column_apply {a b : ℕ} (x : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x h1) hb (ix2 p c) = x (ix1 p) :=
  (broadcastTo_a1_ab_apply _ hb p c).trans (shapeCast_a_a1_apply x h1 p 0)

end Cert.LibColumn
-- ==== Proof.Region2.lean ====
/-
  The output layer: bias and log-softmax along each row. Grid point t takes rows 5000·t … 5000·t + 4999 of
  the aggregated logits A, adds the bias row b2, and on each row subtracts the row maximum and then the
  logarithm of the row's sum of exponentials; a row's result depends on that row only, so the row blocks
  tile the output and the array ends at the reference's log_softmax(A + b2).
-/
import proofs.«118157_j79242146611357_1_alg».proof.Proof.Gen.KernelIdeal.Frame
import proofs.«118157_j79242146611357_1_alg».proof.Proof.RefRead
import proofs.«118157_j79242146611357_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LogSoftmax

open Cert.KernelIdeal Cert.KernelIdeal.Gen Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-! ## The kernel's payload at an index -/

/-- The largest entry of a row of 64 extended reals, taken as the kernel and the reference both take it: the
    maximum of the −∞ word with the fold of max from that word over the row. -/
def rowMax (L : Fin 64 → Ideal .f32) : Ideal .f32 :=
  max (Ideal.ofBits .f32 0xFF800000#32) ((Finset.univ : Finset (Fin 64)).fold max (Ideal.ofBits .f32 0xFF800000#32) L)

/-- A row's log-softmax at column q: the entry less the row maximum, less the logarithm of the row's sum of
    exponentials of the same differences. -/
def rowLogSoftmax (L : Fin 64 → Ideal .f32) (q : Fin 64) : Ideal .f32 :=
  (L q - rowMax L) - Ideal.log (∑ k : Fin 64, Ideal.exp (L k - rowMax L))

/-- A row index p of the reduced vector with column k put back is the matrix index (p, k). -/
theorem lift_row (h : S5000x64.Reduces [1] S5000) (p : Fin 5000) (k : Fin 64) :
    h.lift (ix1 p) k = ix2 p k :=
  funext fun a => Fin.ext (by
    match a with
    | ⟨0, _⟩ => rfl
    | ⟨1, _⟩ => rfl)

/-- The column of row maxima, laid across the 64 columns, reads the row's maximum at every column. -/
theorem maxcol_apply (v : FVec Ideal S5000x64 .f32) (h : S5000x64.Reduces [1] S5000) (hφ : FKind.Formats FTy.f32)
    (hacc : (0xFF800000#32 : BitVec 32) = FKind.maximumf.neutral .f32 hφ) (p : Fin 5000) (c : Fin 64) :
    broadcastTo S5000x64
        (shapeCast S5000x1
          (maximumf (broadcast S5000 (FloatOps.ofBits (F := Ideal) FTy.f32 0xFF800000#32))
            (multiReduction (F := Ideal) FKind.maximumf [1] S5000 v 0xFF800000#32 h hφ hacc))
          shapeCasts_S5000_S5000x1)
        broadcasts_S5000x1_S5000x64 (ix2 p c)
      = rowMax (fun k => v (ix2 p k)) := by
  refine (Cert.LibColumn.broadcastTo_column_apply _ shapeCasts_S5000_S5000x1 broadcasts_S5000x1_S5000x64 p c).trans ?_
  rw [maximumf_apply, broadcast_apply, Ideal.multiReduction_maximumf_single]
  have hf : (v ∘ h.lift (ix1 p)) = fun k : Fin 64 => v (ix2 p k) := funext fun k => congrArg v (lift_row h p k)
  exact congrArg (fun f => max (Ideal.ofBits .f32 0xFF800000#32)
    (Finset.fold max (Ideal.ofBits .f32 0xFF800000#32) f (Finset.univ : Finset (Fin 64)))) hf

/-- The body's arithmetic on a block v of biased rows, read at (p, q): the log-softmax of row p at column q. -/
theorem rowwise_apply (v : FVec Ideal S5000x64 .f32) (h : S5000x64.Reduces [1] S5000) (hφ : FKind.Formats FTy.f32)
    (hmax : (0xFF800000#32 : BitVec 32) = FKind.maximumf.neutral .f32 hφ)
    (hadd : (0x00000000#32 : BitVec 32) = FKind.add.neutral .f32 hφ) (p : Fin 5000) (q : Fin 64) :
    subf
        (subf v
          (broadcastTo S5000x64
            (shapeCast S5000x1
              (maximumf (broadcast S5000 (FloatOps.ofBits (F := Ideal) FTy.f32 0xFF800000#32))
                (multiReduction (F := Ideal) FKind.maximumf [1] S5000 v 0xFF800000#32 h hφ hmax))
              shapeCasts_S5000_S5000x1)
            broadcasts_S5000x1_S5000x64))
        (broadcastTo S5000x64
          (log
            (shapeCast S5000x1
              (multiReduction (F := Ideal) FKind.add [1] S5000
                (exp
                  (subf v
                    (broadcastTo S5000x64
                      (shapeCast S5000x1
                        (maximumf (broadcast S5000 (FloatOps.ofBits (F := Ideal) FTy.f32 0xFF800000#32))
                          (multiReduction (F := Ideal) FKind.maximumf [1] S5000 v 0xFF800000#32 h hφ hmax))
                        shapeCasts_S5000_S5000x1)
                      broadcasts_S5000x1_S5000x64)))
                0x00000000#32 h hφ hadd)
              shapeCasts_S5000_S5000x1))
          broadcasts_S5000x1_S5000x64)
        (ix2 p q)
      = rowLogSoftmax (fun k => v (ix2 p k)) q := by
  rw [subf_apply, subf_apply, maxcol_apply v h hφ hmax p q]
  rw [Cert.LibColumn.broadcastTo_a1_ab_apply _ broadcasts_S5000x1_S5000x64 p q]
  show _ - Ideal.log (shapeCast S5000x1 _ shapeCasts_S5000_S5000x1 (ix2 p (0 : Fin 1))) = _
  rw [Cert.LibColumn.shapeCast_a_a1_apply _ shapeCasts_S5000_S5000x1 p 0, Ideal.multiReduction_add_single]
  unfold rowLogSoftmax
  refine congrArg (fun s => (v (ix2 p q) - rowMax (fun k => v (ix2 p k))) - Ideal.log s) ?_
  refine Finset.sum_congr rfl fun k _ => ?_
  show Ideal.exp (v (h.lift (ix1 p) k) - _) = _
  rw [lift_row h p k, maxcol_apply v h hφ hmax p k]

/-- The block's bias: the block plus the one bias row laid down the 5000 rows, at (p, k). -/
theorem biased_apply (x : Vec Ideal S5000x64 .f32) (b : Vec Ideal S1x64 .f32) (p : Fin 5000) (k : Fin 64) :
    addf (F := Ideal) (φ := FTy.f32) x (broadcastTo S5000x64 b broadcasts_S1x64_S5000x64) (ix2 p k) = x (ix2 p k) + b (ix2 (0 : Fin 1) k) := by
  rw [addf_apply]
  refine congrArg (fun z => x (ix2 p k) + z) ?_
  refine broadcastTo_apply b broadcasts_S1x64_S5000x64 (ix2 p k) (ix2 (0 : Fin 1) k) fun a => ?_
  match a with
  | ⟨0, _⟩ => rfl
  | ⟨1, _⟩ => rfl

/-- THE PAYLOAD AT AN INDEX: what the body stores at (p, q) is the log-softmax, at column q, of row p of the
    block plus the bias row. -/
theorem pay_apply (x : Vec Ideal S5000x64 .f32) (b : Vec Ideal S1x64 .f32) (p : Fin 5000) (q : Fin 64) :
    k2_pay1 (F := Ideal) x b (ix2 p q) = rowLogSoftmax (fun k => x (ix2 p k) + b (ix2 (0 : Fin 1) k)) q := by
  unfold k2_pay1
  simp only [shapeCast_self]
  refine (rowwise_apply _ reduces_S5000x64_S5000 _ _ _ p q).trans ?_
  exact congrArg (fun L => rowLogSoftmax L q) (funext fun k => biased_apply x b p k)

/-! ## The reference's result at an index -/

section Reference

open Cert.ReferenceIdeal.Gen (reducesTo_S100000x64_S100000_d1 h_S_)
open Cert.ReferenceIdeal.PRead

variable (x0 : (⟨Cert.ReferenceIdeal.S100000x128, .f32⟩ : BufTy).Contents (Elt Ideal))
  (x1 : (⟨Cert.ReferenceIdeal.S2x1600000, .i32⟩ : BufTy).Contents (Elt Ideal))
  (x2 : (⟨Cert.ReferenceIdeal.S128x128, .f32⟩ : BufTy).Contents (Elt Ideal))
  (x3 : (⟨Cert.ReferenceIdeal.S128, .f32⟩ : BufTy).Contents (Elt Ideal))
  (x4 : (⟨Cert.ReferenceIdeal.S128x64, .f32⟩ : BufTy).Contents (Elt Ideal))
  (x5 : (⟨Cert.ReferenceIdeal.S64, .f32⟩ : BufTy).Contents (Elt Ideal))

/-- The reference's biased logits at (r, k): the aggregate there plus the bias at column k. -/
theorem ref_biased_apply (r : Fin 100000) (k : Fin 64) :
    val_main_v65 (F := Ideal) x0 x1 x2 x3 x4 x5 (ix2 r k)
      = val_main_v62 (F := Ideal) x0 x1 x2 x3 x4 (ix2 r k) + x5 (ix1 k) := by
  rw [val_main_v65_apply, val_main_v64_apply, val_main_v63_apply, Ideal.addf_def]
  exact congrArg (fun z => val_main_v62 (F := Ideal) x0 x1 x2 x3 x4 (ix2 r k) + z)
    (congrArg x5 (funext fun a => Fin.ext (by match a with | ⟨0, _⟩ => rfl)))

/-- The host's reduce of an array X over its columns with a max body, at the row index j: the fold of max from
    the initial value over that row's 64 entries. -/
theorem host_rowfold (X : Cert.ReferenceIdeal.S100000x64.Idx → Ideal .f32)
    (init : Cert.ReferenceIdeal.S_.Idx → Ideal .f32) (j : Cert.ReferenceIdeal.S100000.Idx) :
    Host.reduce (FloatOps.maximumf (F := Ideal) (φ := .f32)) X init reducesTo_S100000x64_S100000_d1 h_S_ j
      = (Finset.univ : Finset (Fin 64)).fold max (init (Shape.Idx.first h_S_)) (fun k => X (idx_main_call2_v7 j k)) := by
  rw [Host.reduce_eq_fold_single (FloatOps.maximumf (F := Ideal) (φ := .f32)) X init reducesTo_S100000x64_S100000_d1 (by decide) h_S_]
  have hf : (X ∘ (by decide : Cert.ReferenceIdeal.S100000x64.Reduces [1] Cert.ReferenceIdeal.S100000).lift j)
      = fun k : Fin 64 => X (idx_main_call2_v7 j k) :=
    funext fun k => congrArg X (funext fun a => Fin.ext (by match a with | ⟨0, _⟩ => rfl | ⟨1, _⟩ => rfl))
  exact congrArg (fun f => Finset.fold max (init (Shape.Idx.first h_S_)) f (Finset.univ : Finset (Fin 64))) hf

/-- The reference's column of row maxima, read at any column of row r, is that row's maximum: the host's
    reduce over the columns is the same fold of max from the same −∞ word. -/
theorem ref_max_apply (r : Fin 100000) (c : Fin 64) :
    val_main_call2_v4 (F := Ideal) x0 x1 x2 x3 x4 x5 (ix2 r c)
      = rowMax (fun k => val_main_v65 (F := Ideal) x0 x1 x2 x3 x4 x5 (ix2 r k)) := by
  rw [val_main_call2_v4_apply, val_main_call2_v3_apply, val_main_call2_v2_apply, val_main_call2_v1_apply,
    val_main_call2_cst_0_apply]
  unfold val_main_call2_v0
  rw [host_rowfold, val_main_call2_cst_apply]
  unfold rowMax
  rw [Ideal.maximumf_def, Ideal.ofBits_def]
  have hi : ∀ k : Fin 64, idx_main_call2_v7 (idx_main_call2_v3 (idx_main_call2_v4 (ix2 r c))) k = ix2 r k :=
    fun k => funext fun a => Fin.ext (by match a with | ⟨0, _⟩ => rfl | ⟨1, _⟩ => rfl)
  simp only [hi]

/-- THE REFERENCE AT AN INDEX: its result at (r, q) is the log-softmax, at column q, of row r of the aggregate
    plus the bias. -/
theorem ref_apply (r : Fin 100000) (q : Fin 64) :
    val_main_v66 (F := Ideal) x0 x1 x2 x3 x4 x5 (ix2 r q)
      = rowLogSoftmax (fun k => val_main_v62 (F := Ideal) x0 x1 x2 x3 x4 (ix2 r k) + x5 (ix1 k)) q := by
  have hL : (fun k : Fin 64 => val_main_v65 (F := Ideal) x0 x1 x2 x3 x4 x5 (ix2 r k))
      = fun k => val_main_v62 (F := Ideal) x0 x1 x2 x3 x4 (ix2 r k) + x5 (ix1 k) :=
    funext fun k => ref_biased_apply x0 x1 x2 x3 x4 x5 r k
  rw [← hL, val_main_v66_apply, val_main_call2_v5_apply, val_main_call2_v10_apply, val_main_call2_v9_apply,
    val_main_call2_v8_apply, val_main_call2_v7_apply, val_main_call2_cst_1_apply, ref_max_apply]
  unfold rowLogSoftmax
  rw [Ideal.subf_def, Ideal.subf_def, Ideal.hostUnary_log_def, Ideal.ofBits_def, Ideal.ofBits_zero_f32, zero_add]
  refine congrArg (fun s => (val_main_v65 (F := Ideal) x0 x1 x2 x3 x4 x5 (ix2 r q)
    - rowMax (fun k => val_main_v65 (F := Ideal) x0 x1 x2 x3 x4 x5 (ix2 r k))) - Ideal.log s) ?_
  refine Finset.sum_congr rfl fun k _ => ?_
  have hi : idx_main_call2_v7 (idx_main_call2_v8 (idx_main_call2_v10 (ix2 r q))) k = ix2 r k :=
    funext fun a => Fin.ext (by match a with | ⟨0, _⟩ => rfl | ⟨1, _⟩ => rfl)
  rw [val_main_call2_v6_apply, Ideal.hostUnary_exp_def, val_main_call2_v5_apply, Ideal.subf_def, hi, ref_max_apply]

/-- THE BLOCK AGAINST THE REFERENCE: where row p of the block x is row r of the aggregate and the block b is the
    bias as one row, the payload at (p, q) is the reference's result at (r, q). -/
theorem block_eq (x : Vec Ideal S5000x64 .f32) (b : Vec Ideal S1x64 .f32) (p : Fin 5000) (q : Fin 64) (r : Fin 100000)
    (hx : ∀ k : Fin 64, x (ix2 p k) = val_main_v62 (F := Ideal) x0 x1 x2 x3 x4 (ix2 r k))
    (hb : ∀ k : Fin 64, b (ix2 (0 : Fin 1) k) = x5 (ix1 k)) :
    k2_pay1 (F := Ideal) x b (ix2 p q) = val_main_v66 (F := Ideal) x0 x1 x2 x3 x4 x5 (ix2 r q) := by
  rw [pay_apply, ref_apply]
  exact congrArg (fun L => rowLogSoftmax L q) (funext fun k => by rw [hx k, hb k])

end Reference

/-! ## From blocks to the array -/

theorem hz : (![0, 0] : Fin 2 → Nat) = fun _ => 0 := funext fun a => by fin_cases a <;> rfl

/-- The printed index maps, decided over the grid: point t reads row block t of the logits and writes row block t of
    the output, both at column block 0, and reads the whole bias row. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- WHAT POINT t WRITES BACK is block t of G, for any G that the body's payload computes row by row from the
    rows of the two input arrays: row p of the block from row 5000·t + p of the logits and from the bias row. -/
theorem flushed_eq_of (c : Dev nD) (G : S100000x64.Idx → Elt Ideal .f32)
    (hG : ∀ (x : Vec Ideal S5000x64 .f32) (b : Vec Ideal S1x64 .f32) (p : Fin 5000) (q : Fin 64) (r : Fin 100000),
        (∀ k : Fin 64, x (ix2 p k) = V c main_v59 (ix2 r k)) →
        (∀ k : Fin 64, b (ix2 (0 : Fin 1) k) = V c main_v60 (ix2 (0 : Fin 1) k)) →
        k2_pay1 (F := Ideal) x b (ix2 p q) = G (ix2 r q))
    (t : Fin cfg2.N) :
    (dat2 (F := Ideal) V c).flushed 2 t = ((cfg2.win 2).blk t).view.read (Elt Ideal) G := by
  show (cfg2.win 2).cut (grid2.coords t) ((dat2 V c).after 2 t) = _
  rw [after2_2]
  unfold out2_2
  rw [View.canon_unit_zero hz]
  simp only [View.ld_unit_zero (S := S5000x64) hz, View.ld_unit_zero (S := S1x64) hz]
  obtain ⟨e0, e1, e2, e3, e4, e5⟩ := idx_facts t
  funext y
  show k2_pay1 (F := Ideal) (iblk2 V c 0 t) (iblk2 V c 1 t) y = G (((cfg2.win 2).blk t).view.emb y)
  have hp : (y 0).val < 5000 := (y 0).isLt
  have hq : (y 1).val < 64 := (y 1).isLt
  have ht : t.val < 20 := t.isLt
  have hemb : ((cfg2.win 2).blk t).view.emb y
      = ix2 (⟨t.val * 5000 + (y 0).val, by omega⟩ : Fin 100000) (⟨(y 1).val, hq⟩ : Fin 64) := by
    funext a; apply Fin.ext
    match a with
    | ⟨0, _⟩ => show win2_2.index t (0 : Fin 2) * 5000 + 1 * (y 0).val = t.val * 5000 + (y 0).val; omega
    | ⟨1, _⟩ => show win2_2.index t (1 : Fin 2) * 64 + 1 * (y 1).val = (y 1).val; omega
  rw [hemb]
  refine (congrArg (k2_pay1 (F := Ideal) (iblk2 V c 0 t) (iblk2 V c 1 t)) (eq_ix2 y)).trans ?_
  refine hG _ _ ⟨(y 0).val, hp⟩ ⟨(y 1).val, hq⟩ ⟨t.val * 5000 + (y 0).val, by omega⟩ (fun k => ?_) (fun k => ?_)
  · show V c main_v59 (((cfg2.win 0).blk t).view.emb (ix2 (⟨(y 0).val, hp⟩ : Fin 5000) k)) = V c main_v59 _
    refine congrArg (V c main_v59) (funext fun a => Fin.ext ?_)
    match a with
    | ⟨0, _⟩ => show win2_0.index t (0 : Fin 2) * 5000 + 1 * (y 0).val = t.val * 5000 + (y 0).val; omega
    | ⟨1, _⟩ => show win2_0.index t (1 : Fin 2) * 64 + 1 * k.val = k.val; omega
  · show V c main_v60 (((cfg2.win 1).blk t).view.emb (ix2 (0 : Fin 1) k)) = V c main_v60 _
    refine congrArg (V c main_v60) (funext fun a => Fin.ext ?_)
    match a with
    | ⟨0, _⟩ => show win2_1.index t (0 : Fin 2) * 1 + 1 * 0 = 0; omega
    | ⟨1, _⟩ => show win2_1.index t (1 : Fin 2) * 64 + 1 * k.val = k.val; omega

/-- An index of the array is in point t's block iff each coordinate is in the block's range on its axis. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v61).slice (win2_2.rect t)).set ↔ _
  rw [View.set_slice_whole, Rect.mem_set_unit]
  exact Iff.rfl

/-- Row r of the output is written back by point r / 5000: the twenty row blocks cover the array. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have ht : (i 0).val / 5000 < cfg2.N := by show _ < 20; omega
  obtain ⟨-, -, -, -, e4, e5⟩ := idx_facts ⟨(i 0).val / 5000, ht⟩
  have e4' : win2_2.index ⟨(i 0).val / 5000, ht⟩ (0 : Fin 2) = (i 0).val / 5000 := e4
  refine ⟨⟨(i 0).val / 5000, ht⟩, flush2_2 _, ?_⟩
  rw [mem_blk]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    omega
  | ⟨1, _⟩ =>
    show win2_2.index ⟨(i 0).val / 5000, ht⟩ (1 : Fin 2) * 64 ≤ (i 1).val ∧ (i 1).val < win2_2.index ⟨(i 0).val / 5000, ht⟩ (1 : Fin 2) * 64 + 64
    omega

/-- THE ARRAY after the region is G, whenever the payload computes G row by row. -/
theorem array_eq_of (c : Dev nD) (G : S100000x64.Idx → Elt Ideal .f32)
    (hG : ∀ (x : Vec Ideal S5000x64 .f32) (b : Vec Ideal S1x64 .f32) (p : Fin 5000) (q : Fin 64) (r : Fin 100000),
        (∀ k : Fin 64, x (ix2 p k) = V c main_v59 (ix2 r k)) →
        (∀ k : Fin 64, b (ix2 (0 : Fin 1) k) = V c main_v60 (ix2 (0 : Fin 1) k)) →
        k2_pay1 (F := Ideal) x b (ix2 p q) = G (ix2 r q)) :
    (dat2 (F := Ideal) V c).arrAt 2 cfg2.N = G :=
  (dat2 (F := Ideal) V c).arrAt_eq_of_cover 2 G (fun t _ => flushed_eq_of V c G hG t) cover

/-- After the third region its output array is the reference's result: log_softmax of (aggregate + bias) along rows. -/
theorem array_eq (c : Dev nD)
    (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S128x128, .f32⟩ : BufTy).Contents (Elt Ideal))
    (x3 : (⟨Cert.ReferenceIdeal.S128, .f32⟩ : BufTy).Contents (Elt Ideal))
    (x4 : (⟨Cert.ReferenceIdeal.S128x64, .f32⟩ : BufTy).Contents (Elt Ideal))
    (x5 : (⟨Cert.ReferenceIdeal.S64, .f32⟩ : BufTy).Contents (Elt Ideal))
    (h0 : V c main_v59 = Cert.ReferenceIdeal.PRead.val_main_v62 (F := Ideal) x0 x1 x2 x3 x4)
    (h1 : V c main_v60 = shapeCast S1x64 x5 shapeCasts_S64_S1x64) :
    (dat2 (F := Ideal) V c).arrAt 2 cfg2.N
      = Cert.ReferenceIdeal.PRead.val_main_v66 (F := Ideal) x0 x1 x2 x3 x4 x5 := by
  refine array_eq_of V c _ fun x b p q r hx hb => ?_
  refine block_eq x0 x1 x2 x3 x4 x5 x b p q r (fun k => ?_) (fun k => ?_)
  · rw [hx k, h0]
  · rw [hb k, h1]
    exact shapeCast_apply x5 shapeCasts_S64_S1x64 (ix2 (0 : Fin 1) k) (ix1 k) (by
      rw [Shape.rowMajor_val_two, Shape.rowMajor_val_one]
      show k.val = 0 * 64 + k.val
      omega)

end Cert.KernelIdeal.LogSoftmax

end
-- ==== Proof.KernelValue.lean ====
/-
  The idealized kernel's result as one function of its arguments. Along the run: the first region leaves x · W1;
  the host gathers its rows by source, scales and scatter-adds them by destination; the second region adds the first
  bias, clamps at zero and multiplies by W2; the host aggregates again; the third region adds the second bias and takes
  the log-softmax of each row. At every boundary the buffer holds exactly the reference's stage of the same arguments,
  so the result array ends at the reference's last stage.
-/
import proofs.«118157_j79242146611357_1_alg».proof.Proof.KernelRun
import proofs.«118157_j79242146611357_1_alg».proof.Proof.Glue
import proofs.«118157_j79242146611357_1_alg».proof.Proof.Region0
import proofs.«118157_j79242146611357_1_alg».proof.Proof.Region1
import proofs.«118157_j79242146611357_1_alg».proof.Proof.Region2

set_option maxRecDepth 16384

noncomputable section

namespace Cert.KernelIdeal.Whole

open Cert.KernelIdeal Cert.KernelIdeal.Gen Idealize.ShloMosaic Idealize.ShloMosaic.TcCoe Idealize.SL.Sem
open Cert.ReferenceIdeal.PRead

variable (m : (ℓ : Loc nD τ sig) → Buf (Elt Ideal) ℓ) (ρ : Dev nD → PrngReg)

/-- After the first region: the product of the features and the first weights. -/
theorem product1 (c : Dev nD) :
    W4 m ρ c (Proc.devRef .tc main_v31) = val_main_v31 (F := Ideal) (m ((c : Thread nD τ).loc main_arg0)) (m ((c : Thread nD τ).loc main_arg2)) :=
  (W4_arr m ρ c 2).trans ((Dense1.array_eq (V3 m ρ) c).trans
    (congrArg₂ (val_main_v31 (F := Ideal)) (Glue.arg0_at3 m ρ c) (Glue.arg2_at3 m ρ c)))

/-- After the second region: relu of the first layer's aggregate plus bias, times the second weights. -/
theorem product2 (c : Dev nD) :
    W6 m ρ c (Proc.devRef .tc main_v46)
      = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W6_arr m ρ c 3).trans ((Dense2.array_eq (V5 m ρ) c _ _ _ _
      (Glue.agg1_at5 m ρ c (product1 m ρ c)) (Glue.bias1_at5 m ρ c)).trans
    (congrArg (val_main_v49 (F := Ideal) (m ((c : Thread nD τ).loc main_arg0)) (m ((c : Thread nD τ).loc main_arg1)) (m ((c : Thread nD τ).loc main_arg2)) (m ((c : Thread nD τ).loc main_arg3))) (Glue.arg4_at5 m ρ c)))

/-- After the third region: the log-softmax of the second layer's aggregate plus bias. -/
theorem result_eq (c : Dev nD) :
    W8 m ρ c (Proc.devRef .tc main_v61)
      = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W8_arr m ρ c 2).trans (LogSoftmax.array_eq (V7 m ρ) c _ _ _ _ _ _
    (Glue.agg2_at7 m ρ c (product2 m ρ c)) (Glue.bias2_at7 m ρ c))

/-- The run: the result array at the reference's last stage of the launch arguments, the arguments unchanged. -/
theorem run : θ_run defs (onTc (τ := τ) (main (F := Ideal))) ⟨m, fun _ => 0, ρ⟩ (fun r => ∀ c : Dev nD,
      r.2.mem ((c.tc : Thread nD τ).loc main_v61)
        = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (Named.run_result m ρ)

end Cert.KernelIdeal.Whole

end
-- ==== Proof.RefRun.lean ====
/-
  The reference program's run, read against its stages. Its @main is one straight line of a hundred host
  operations; every weakly fair execution ends with each buffer at the fold of the operations over the launch
  contents. The fold is read in four stretches: the first forty-two operations build the message lists
  (sources, destinations) and the normalisation coefficients from the edge argument; the next twenty-four the
  first layer (product, gather, scale, scatter-add, bias, relu) and the second layer's product; the next
  nineteen the second aggregation and its bias; the last fifteen the log-softmax of each row. Each stretch is read from a valuation about
  which only the earlier stretches' results are known, so no stretch is opened twice.
-/
import proofs.«118157_j79242146611357_1_alg».proof.Proof.RefOps
import proofs.«118157_j79242146611357_1_alg».proof.Proof.RefRead
import Idealize.ShloMosaic.Lib.Pipeline.Frame

set_option maxRecDepth 16384

noncomputable section

namespace Cert.ReferenceIdeal.Stagewise

open Cert.ReferenceIdeal Cert.ReferenceIdeal.Gen Cert.ReferenceIdeal.PValue Cert.ReferenceIdeal.PRead
open Idealize.ShloMosaic Idealize.ShloMosaic.TcCoe Idealize.SL.Sem Idealize.ShloMosaic.StableHlo

variable {F : FTy → Type} [FloatOps F]

/-- The fold over a list is the fold over its tail part from the fold over its head part, cut anywhere. -/
theorem after_cut (n : Nat) (l : List (HloOp τ sig (Elt F))) (V : Valuation τ sig (Elt F)) :
    after l V = after (l.drop n) (after (l.take n) V) := by
  conv_lhs => rw [← List.take_append_drop n l]
  exact after_append _ _ _

/-- The operations that build the message lists and the normalisation. -/
abbrev opsA : List (HloOp τ sig (Elt F)) := (ops (F := F)).take 42
/-- The first layer and the second layer's product. -/
abbrev opsB : List (HloOp τ sig (Elt F)) := ((ops (F := F)).drop 42).take 24
/-- The second aggregation and its bias. -/
abbrev opsC : List (HloOp τ sig (Elt F)) := (((ops (F := F)).drop 42).drop 24).take 19
/-- The log-softmax of each row. -/
abbrev opsD : List (HloOp τ sig (Elt F)) := (((ops (F := F)).drop 42).drop 24).drop 19

theorem after_ops (V : Valuation τ sig (Elt F)) :
    after (ops (F := F)) V = after opsD (after opsC (after opsB (after opsA V))) := by
  rw [after_cut 42 ops V, after_cut 24 (ops.drop 42) _, after_cut 19 ((ops.drop 42).drop 24) _]

/-- Spell a stretch out as its literal list of operations. -/
local macro "spell" : tactic => `(tactic| simp only [opsA, opsB, opsC, opsD, ops, List.take_succ_cons, List.take_zero, List.drop_succ_cons, List.drop_zero])

/-- A buffer no operation of the stretch writes keeps its contents. -/
local macro "kept" : tactic => `(tactic| (spell; exact after_of_forall_not_mem _ _ (List.forall_iff_forall_mem.mp (by
  simp only [List.Forall, nullary_writes, unary_writes, binary_writes, ternary_writes, quaternary_writes, reshape_writes, binaryIndexed_writes, Finset.mem_singleton]
  repeat' apply And.intro
  all_goals exact devRef_ne_of_ne (by decide)))))

variable (V : Valuation τ sig (Elt F))

/-! ## The first stretch -/

theorem srcA : after opsA V (Proc.devRef .tc main_v3) = val_main_v3 (F := F) (V (Proc.devRef .tc main_arg1)) := by
  spell; after_results; rfl
theorem dstA : after opsA V (Proc.devRef .tc main_v6) = val_main_v6 (F := F) (V (Proc.devRef .tc main_arg1)) := by
  spell; after_results; rfl
theorem normA : after opsA V (Proc.devRef .tc main_v30) = val_main_v30 (F := F) (V (Proc.devRef .tc main_arg1)) := by
  spell; after_results_simp; rfl
theorem keepA0 : after opsA V (Proc.devRef .tc main_arg0) = (V (Proc.devRef .tc main_arg0)) := by kept
theorem keepA2 : after opsA V (Proc.devRef .tc main_arg2) = (V (Proc.devRef .tc main_arg2)) := by kept
theorem keepA3 : after opsA V (Proc.devRef .tc main_arg3) = (V (Proc.devRef .tc main_arg3)) := by kept
theorem keepA4 : after opsA V (Proc.devRef .tc main_arg4) = (V (Proc.devRef .tc main_arg4)) := by kept
theorem keepA5 : after opsA V (Proc.devRef .tc main_arg5) = (V (Proc.devRef .tc main_arg5)) := by kept

/-! ## The second stretch -/

theorem keepB3 : after opsB V (Proc.devRef .tc main_v3) = V (Proc.devRef .tc main_v3) := by kept
theorem keepB6 : after opsB V (Proc.devRef .tc main_v6) = V (Proc.devRef .tc main_v6) := by kept
theorem keepB30 : after opsB V (Proc.devRef .tc main_v30) = V (Proc.devRef .tc main_v30) := by kept
theorem keepB5 : after opsB V (Proc.devRef .tc main_arg5) = (V (Proc.devRef .tc main_arg5)) := by kept

set_option maxHeartbeats 4000000 in
/-- The second layer's product, from a valuation that holds the message lists, the coefficients and the arguments. -/
theorem denseB (x0 : (⟨S100000x128, .f32⟩ : BufTy).Contents (Elt F)) (x1 : (⟨S2x1600000, .i32⟩ : BufTy).Contents (Elt F))
    (x2 : (⟨S128x128, .f32⟩ : BufTy).Contents (Elt F)) (x3 : (⟨S128, .f32⟩ : BufTy).Contents (Elt F))
    (x4 : (⟨S128x64, .f32⟩ : BufTy).Contents (Elt F))
    (h3 : V (Proc.devRef .tc main_v3) = val_main_v3 (F := F) x1) (h6 : V (Proc.devRef .tc main_v6) = val_main_v6 (F := F) x1)
    (h30 : V (Proc.devRef .tc main_v30) = val_main_v30 (F := F) x1)
    (e0 : (V (Proc.devRef .tc main_arg0)) = x0) (e2 : (V (Proc.devRef .tc main_arg2)) = x2) (e3 : (V (Proc.devRef .tc main_arg3)) = x3) (e4 : (V (Proc.devRef .tc main_arg4)) = x4) :
    after opsB V (Proc.devRef .tc main_v49) = val_main_v49 (F := F) x0 x1 x2 x3 x4 := by
  spell
  after_results_simp
  rw [h3, h6, h30, e0, e2, e3, e4]
  rfl

/-! ## The third stretch -/

set_option maxHeartbeats 4000000 in
/-- The biased logits, from a valuation that holds the second layer's product, the message lists and the coefficients. -/
theorem logitsC (x0 : (⟨S100000x128, .f32⟩ : BufTy).Contents (Elt F)) (x1 : (⟨S2x1600000, .i32⟩ : BufTy).Contents (Elt F))
    (x2 : (⟨S128x128, .f32⟩ : BufTy).Contents (Elt F)) (x3 : (⟨S128, .f32⟩ : BufTy).Contents (Elt F))
    (x4 : (⟨S128x64, .f32⟩ : BufTy).Contents (Elt F)) (x5 : (⟨S64, .f32⟩ : BufTy).Contents (Elt F))
    (h49 : V (Proc.devRef .tc main_v49) = val_main_v49 (F := F) x0 x1 x2 x3 x4)
    (h3 : V (Proc.devRef .tc main_v3) = val_main_v3 (F := F) x1) (h6 : V (Proc.devRef .tc main_v6) = val_main_v6 (F := F) x1)
    (h30 : V (Proc.devRef .tc main_v30) = val_main_v30 (F := F) x1) (e5 : (V (Proc.devRef .tc main_arg5)) = x5) :
    after opsC V (Proc.devRef .tc main_v65) = val_main_v65 (F := F) x0 x1 x2 x3 x4 x5 := by
  spell
  after_results_simp
  rw [h49, h3, h6, h30, e5]
  rfl

/-! ## The fourth stretch -/

/-- The callee's fifteen operations over the call's buffers, spelt with the plain builders: the row maximum (a
    max-reduce from −∞, then max with −∞), the shift by it, the exponentials, their row sum from zero, its
    logarithm, and the second shift. -/
abbrev opsD' : List (HloOp τ sig (Elt F)) :=
  [ nullary main_call2_cst (constant S_ .f32 0xFF800000#32),
    binary main_v65 main_call2_cst main_call2_v0 ((fun x v => Host.reduce FloatOps.maximumf x v reducesTo_S100000x64_S100000_d1 h_S_) : (⟨S100000x64, .f32⟩ : BufTy).Contents (Elt F) → (⟨S_, .f32⟩ : BufTy).Contents (Elt F) → (⟨S100000, .f32⟩ : BufTy).Contents (Elt F)),
    nullary main_call2_cst_0 (constant S_ .f32 0xFF800000#32),
    unary main_call2_cst_0 main_call2_v1 (broadcastInDim S100000 ![] bcast_S_S100000 : (⟨S_, .f32⟩ : BufTy).Contents (Elt F) → (⟨S100000, .f32⟩ : BufTy).Contents (Elt F)),
    binary main_call2_v1 main_call2_v0 main_call2_v2 (maximumf : (⟨S100000, .f32⟩ : BufTy).Contents (Elt F) → (⟨S100000, .f32⟩ : BufTy).Contents (Elt F) → (⟨S100000, .f32⟩ : BufTy).Contents (Elt F)),
    unary main_call2_v2 main_call2_v3 (broadcastInDim S100000x1 ![0] bcast_S100000_S100000x1_0 : (⟨S100000, .f32⟩ : BufTy).Contents (Elt F) → (⟨S100000x1, .f32⟩ : BufTy).Contents (Elt F)),
    unary main_call2_v3 main_call2_v4 (broadcastInDim S100000x64 ![0, 1] bcast_S100000x1_S100000x64_0_1 : (⟨S100000x1, .f32⟩ : BufTy).Contents (Elt F) → (⟨S100000x64, .f32⟩ : BufTy).Contents (Elt F)),
    binary main_v65 main_call2_v4 main_call2_v5 (subf : (⟨S100000x64, .f32⟩ : BufTy).Contents (Elt F) → (⟨S100000x64, .f32⟩ : BufTy).Contents (Elt F) → (⟨S100000x64, .f32⟩ : BufTy).Contents (Elt F)),
    unary main_call2_v5 main_call2_v6 (Host.exp : (⟨S100000x64, .f32⟩ : BufTy).Contents (Elt F) → (⟨S100000x64, .f32⟩ : BufTy).Contents (Elt F)),
    nullary main_call2_cst_1 (constant S_ .f32 0x00000000#32),
    binary main_call2_v6 main_call2_cst_1 main_call2_v7 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_call2_v7 main_call2_v8 (broadcastInDim S100000x1 ![0] bcast_S100000_S100000x1_0 : (⟨S100000, .f32⟩ : BufTy).Contents (Elt F) → (⟨S100000x1, .f32⟩ : BufTy).Contents (Elt F)),
    unary main_call2_v8 main_call2_v9 (Host.log : (⟨S100000x1, .f32⟩ : BufTy).Contents (Elt F) → (⟨S100000x1, .f32⟩ : BufTy).Contents (Elt F)),
    unary main_call2_v9 main_call2_v10 (broadcastInDim S100000x64 ![0, 1] bcast_S100000x1_S100000x64_0_1 : (⟨S100000x1, .f32⟩ : BufTy).Contents (Elt F) → (⟨S100000x64, .f32⟩ : BufTy).Contents (Elt F)),
    binary main_call2_v5 main_call2_v10 main_v66 (subf : (⟨S100000x64, .f32⟩ : BufTy).Contents (Elt F) → (⟨S100000x64, .f32⟩ : BufTy).Contents (Elt F) → (⟨S100000x64, .f32⟩ : BufTy).Contents (Elt F)) ]

/-- The callee's row-maximum operation, with ANY function in its place, is the plain operation on the same three
    buffers: the transports along the buffers' type equations change nothing. Stated over a variable function so that
    the comparison never looks inside the reduction. -/
theorem rowmax_op (f : (⟨S100000x64, .f32⟩ : BufTy).Contents (Elt F) → (⟨S_, .f32⟩ : BufTy).Contents (Elt F) → (⟨S100000, .f32⟩ : BufTy).Contents (Elt F)) :
    (TRef.binary (TRef.of (T := ⟨S100000x64, .f32⟩) main_v65) (TRef.of (T := ⟨S_, .f32⟩) main_call2_cst) (TRef.of (T := ⟨S100000, .f32⟩) main_call2_v0) f : HloOp τ sig (Elt F))
      = binary main_v65 main_call2_cst main_call2_v0 f := rfl

/-- The last stretch of the line IS that list: an operation on a callee's buffer carries its operands and its result
    through the buffer's type equation and back, which changes nothing. -/
theorem opsD_plain : (opsD (F := F)) = opsD' := by
  spell
  refine congrArg₂ List.cons rfl (congrArg₂ List.cons (rowmax_op _) ?_)
  repeat' refine congrArg₂ List.cons ?_ ?_
  all_goals rfl

set_option maxHeartbeats 4000000 in
/-- The log-softmax of each row of the biased logits: the callee's fifteen operations from a valuation that holds them. -/
theorem resultD (x0 : (⟨S100000x128, .f32⟩ : BufTy).Contents (Elt F)) (x1 : (⟨S2x1600000, .i32⟩ : BufTy).Contents (Elt F))
    (x2 : (⟨S128x128, .f32⟩ : BufTy).Contents (Elt F)) (x3 : (⟨S128, .f32⟩ : BufTy).Contents (Elt F))
    (x4 : (⟨S128x64, .f32⟩ : BufTy).Contents (Elt F)) (x5 : (⟨S64, .f32⟩ : BufTy).Contents (Elt F))
    (h65 : V (Proc.devRef .tc main_v65) = val_main_v65 (F := F) x0 x1 x2 x3 x4 x5) :
    after opsD V (Proc.devRef .tc main_v66) = val_main_v66 (F := F) x0 x1 x2 x3 x4 x5 := by
  rw [opsD_plain]
  dsimp only [opsD']
  after_results_simp
  rw [h65]
  rfl

/-! ## The whole line -/

/-- The result buffer after all hundred operations is the last stage of the arguments. -/
theorem result_eq :
    after (ops (F := F)) V (Proc.devRef .tc main_v66)
      = val_main_v66 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [after_ops]
  have a3 := srcA V
  have a6 := dstA V
  have a30 := normA V
  have k0 := keepA0 V
  have k2 := keepA2 V
  have k3 := keepA3 V
  have k4 := keepA4 V
  have k5 := keepA5 V
  generalize after opsA V = V1 at a3 a6 a30 k0 k2 k3 k4 k5 ⊢
  have b49 := denseB V1 _ _ _ _ _ a3 a6 a30 k0 k2 k3 k4
  have b3 := (keepB3 V1).trans a3
  have b6 := (keepB6 V1).trans a6
  have b30 := (keepB30 V1).trans a30
  have b5 := (keepB5 V1).trans k5
  generalize after opsB V1 = V2 at b49 b3 b6 b30 b5 ⊢
  have c65 := logitsC V2 _ _ _ _ _ _ b49 b3 b6 b30 b5
  generalize after opsC V2 = V3 at c65 ⊢
  exact resultD V3 _ _ _ _ _ _ c65

set_option maxRecDepth 8192 in
set_option maxHeartbeats 40000000 in
/-- On every device, from any memory with zero counters: every weakly fair execution of @main terminates with the
    result at the last stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v66)
        = val_main_v66 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v66).trans (result_eq (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Stagewise

end
-- ==== Proof.lean ====
/-
  A two-layer graph convolution network with a log-softmax head: kernel against reference.

  Both programs compute, for node features x, edges (with a self-loop added at every node), weights W1, W2 and
  biases b1, b2:  out = log_softmax( Â · relu( Â · (x · W1) + b1 ) · W2 + b2 ),  where Â aggregates messages
  h[src] · deg(src)^(-1/2) · deg(dst)^(-1/2) into their destination rows. The reference does every step as a host
  operation. The kernel does the index work and the gather / scale / scatter-add with the very same host operations,
  and the three dense steps in three grid kernels over row blocks of 5000 nodes: x · W1; relu(· + b1) · W2; and
  log_softmax(· + b2). Over the extended reals each grid kernel's output array is the reference's corresponding
  stage, entry by entry: a row block of a matrix product is the product of the row block (the sum over the shared
  index is the same sum), adding a bias row and clamping at zero act entry by entry, and a row's log-softmax reads
  that row only. No law beyond reading both sides at an index is used, so the finiteness of the inputs is never
  opened. The idealization's ledger of rewrites is empty, so the conjunct that asks the kernel's idealization to be
  sanctioned is `True`.
-/
import proofs.«118157_j79242146611357_1_alg».proof.Defs
import proofs.«118157_j79242146611357_1_alg».proof.Proof.Gen.Kernel
import proofs.«118157_j79242146611357_1_alg».proof.Proof.Gen.Kernel.Frame
import proofs.«118157_j79242146611357_1_alg».proof.Proof.Gen.KernelIdeal
import proofs.«118157_j79242146611357_1_alg».proof.Proof.Gen.KernelIdeal.Frame
import proofs.«118157_j79242146611357_1_alg».proof.Proof.Gen.ReferenceIdeal
import proofs.«118157_j79242146611357_1_alg».proof.Proof.Gen.Pre_finite_inputs
import proofs.«118157_j79242146611357_1_alg».proof.Proof.KernelValue
import proofs.«118157_j79242146611357_1_alg».proof.Proof.RefRun
import Idealize.ShloMosaic.Adequacy
import Idealize.ShloMosaic.Init

noncomputable section

namespace Cert.Proof

open Idealize.ShloMosaic Idealize.SL.Sem

/-- The printed kernel runs and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Stagewise.run (F := Ideal) m ρ)

/-- From memories that agree on the six arguments both programs end with the reference's last stage of those
    arguments in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.PRead.val_main_v66 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Whole.run m ρ, ?_⟩
  refine (θ_run Cert.ReferenceIdeal.defs _ _).mono (fun _ h c => ⟨(h c).1.trans ?_, (h c).2⟩)
    (Cert.ReferenceIdeal.Stagewise.run (F := Ideal) m' ρ')
  obtain ⟨e0, e1, e2, e3, e4, e5⟩ := hagree c
  rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
